-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S11008x4096 : Shape := ⟨2, ![11008, 4096]⟩
abbrev S11008 : Shape := ⟨1, ![11008]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg5 : FVec F S11008 .f32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_v19 : FVec F S11008 .f32 := Host.absf main_arg5
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  main_v23

def fn {F : FTy → Type} [FloatOps F] (main_arg0 : FVec F S8x4096 .f32) (main_arg1 : FVec F S11008x4096 .f32) (main_arg2 : IVec S11008x4096 32) (main_arg3 : FVec F S11008 .f32) (main_arg4 : FVec F S11008 .f32) (main_arg5 : FVec F S11008 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg5 main_v13 main_v16
-- ==== Kernel.lean ====
abbrev S8x4096 : Shape := ⟨2, ![8, 4096]⟩
abbrev S11008x4096 : Shape := ⟨2, ![11008, 4096]⟩
abbrev S11008 : Shape := ⟨1, ![11008]⟩
abbrev S11008x1 : Shape := ⟨2, ![11008, 1]⟩
abbrev S1x11008 : Shape := ⟨2, ![1, 11008]⟩
abbrev S8x11008 : Shape := ⟨2, ![8, 11008]⟩
abbrev S256x4096 : Shape := ⟨2, ![256, 4096]⟩
abbrev S256x1 : Shape := ⟨2, ![256, 1]⟩
abbrev S1x256 : Shape := ⟨2, ![1, 256]⟩
abbrev S8x256 : Shape := ⟨2, ![8, 256]⟩
abbrev S4096x256 : Shape := ⟨2, ![4096, 256]⟩

abbrev nBuf : Space → Nat
  | .hbm => 10
  | .vmem => 13
  | .smem => 0
  | _ => 0

abbrev bufTy : (tb : Table) → Fin (tcTables nBuf tb) → BufTy
  | .hbm, ⟨0, _⟩ => ⟨S8x4096, .f32⟩
  | .hbm, ⟨1, _⟩ => ⟨S11008x4096, .f32⟩
  | .hbm, ⟨2, _⟩ => ⟨S11008x4096, .i32⟩
  | .hbm, ⟨3, _⟩ => ⟨S11008, .f32⟩
  | .hbm, ⟨4, _⟩ => ⟨S11008, .f32⟩
  | .hbm, ⟨5, _⟩ => ⟨S11008, .f32⟩
  | .hbm, ⟨6, _⟩ => ⟨S11008x1, .f32⟩
  | .hbm, ⟨7, _⟩ => ⟨S11008x1, .f32⟩
  | .hbm, ⟨8, _⟩ => ⟨S1x11008, .f32⟩
  | .hbm, ⟨9, _⟩ => ⟨S8x11008, .f32⟩
  | .local _ .vmem, ⟨0, _⟩ => ⟨S8x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .i32⟩
  | .local _ .vmem, ⟨4, _⟩ => ⟨S256x4096, .i32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S1x256, .f32⟩
  | .local _ .vmem, ⟨10, _⟩ => ⟨S1x256, .f32⟩
  | .local _ .vmem, ⟨11, _⟩ => ⟨S8x256, .f32⟩
  | .local _ .vmem, ⟨12, _⟩ => ⟨S8x256, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S11008_S11008x1 : S11008.ShapeCasts S11008x1
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  bitsLt_bf16_f32 : FTy.bits .bf16 < FTy.bits .f32
  inb_S8x4096_S8x4096_0_0 : ∀ a, (![0, 0] : Fin 2 → Nat) a + S8x4096.size a ≤ S8x4096.size a
  h_S8x4096 : 0 < S8x4096.numel
  transposes_S256x4096_p1_0_S4096x256 : S256x4096.Transposes [1, 0] S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  dot_S8x4096_S4096x256_S8x256_1_0_0_1_n_n_wf : DotDims.WF S8x4096 S4096x256 S8x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .i32 = 32 ∨ (Rect.block (s := S11008x4096) S256x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S11008x1.size a
  hwx0_3 : ∀ i : grid0.Coords, EltTy.bits .f32 = 32 ∨ (Rect.block (s := S11008x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S11008x1.size a
  hwx0_4 : ∀ i : grid0.Coords, EltTy.bits .f32 = 32 ∨ (Rect.block (s := S11008x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x11008.size a
  hwx0_5 : ∀ i : grid0.Coords, EltTy.bits .f32 = 32 ∨ (Rect.block (s := S1x11008) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S8x11008.size a
  hwx0_6 : ∀ i : grid0.Coords, EltTy.bits .f32 = 32 ∨ (Rect.block (s := S8x11008) S8x256.size (cc0_transform_6 i) (hinb0_6 i)).WholeWords (EltTy.packing .f32)

variable [Facts₀]

def dot_S8x4096_S4096x256_S8x256_1_0_0_1_n_n : DotDims S8x4096 S4096x256 S8x256 where
  lhsContracting := [1]
  rhsContracting := [0]
  lhsNonContracting := [0]
  rhsNonContracting := [1]
  lhsBatch := []
  rhsBatch := []
  wf := dot_S8x4096_S4096x256_S8x256_1_0_0_1_n_n_wf

abbrev win0_0 : Pipeline.Window sig grid0 :=
  Pipeline.Window.ofSpec (Memref.whole main_arg0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S8x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096 : Shape := ⟨2, ![8, 4096]⟩
abbrev S11008x4096 : Shape := ⟨2, ![11008, 4096]⟩
abbrev S11008 : Shape := ⟨1, ![11008]⟩
abbrev S11008x1 : Shape := ⟨2, ![11008, 1]⟩
abbrev S4096x11008 : Shape := ⟨2, ![4096, 11008]⟩
abbrev S8x11008 : Shape := ⟨2, ![8, 11008]⟩
abbrev S1x11008 : Shape := ⟨2, ![1, 11008]⟩

abbrev nBuf : Space → Nat
  | .hbm => 19
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S11008x4096, .f32⟩
  | .hbm, ⟨2, _⟩ => ⟨S11008x4096, .i32⟩
  | .hbm, ⟨3, _⟩ => ⟨S11008, .f32⟩
  | .hbm, ⟨4, _⟩ => ⟨S11008, .f32⟩
  | .hbm, ⟨5, _⟩ => ⟨S11008, .f32⟩
  | .hbm, ⟨6, _⟩ => ⟨S11008x4096, .f32⟩
  | .hbm, ⟨7, _⟩ => ⟨S11008x1, .f32⟩
  | .hbm, ⟨8, _⟩ => ⟨S11008x4096, .f32⟩
  | .hbm, ⟨9, _⟩ => ⟨S11008x4096, .f32⟩
  | .hbm, ⟨10, _⟩ => ⟨S11008x1, .f32⟩
  | .hbm, ⟨11, _⟩ => ⟨S11008x4096, .f32⟩
  | .hbm, ⟨12, _⟩ => ⟨S11008x4096, .f32⟩
  | .hbm, ⟨13, _⟩ => ⟨S11008x4096, .f32⟩
  | .hbm, ⟨14, _⟩ => ⟨S4096x11008, .f32⟩
  | .hbm, ⟨15, _⟩ => ⟨S8x11008, .f32⟩
  | .hbm, ⟨16, _⟩ => ⟨S1x11008, .f32⟩
  | .hbm, ⟨17, _⟩ => ⟨S8x11008, .f32⟩
  | .hbm, ⟨18, _⟩ => ⟨S8x11008, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  transposes_S11008x4096_S4096x11008_1_0 : S11008x4096.Transposes [1, 0] S4096x11008
  bcast_S11008_S1x11008_1 : S11008.BroadcastsInDim S1x11008 (![1] : Fin 1 → Fin S1x11008.rank)
  bcast_S1x11008_S8x11008_0_1 : S1x11008.BroadcastsInDim S8x11008 (![0, 1] : Fin 2 → Fin S8x11008.rank)
  dot_S8x4096_S4096x11008_S8x11008_1_0_0_1_n_n_wf : DotDims.WF S8x4096 S4096x11008 S8x11008 [1] [0] [0] [1] [] []

variable [Facts₀]

def dot_S8x4096_S4096x11008_S8x11008_1_0_0_1_n_n : DotDims S8x4096 S4096x11008 S8x11008 where
  lhsContracting := [1]
  rhsContracting := [0]
  lhsNonContracting := [0]
  rhsNonContracting := [1]
  lhsBatch := []
  rhsBatch := []
  wf := dot_S8x4096_S4096x11008_S8x11008_1_0_0_1_n_n_wf

class Facts : Prop extends Facts₀ where

variable [Facts]
-- ==== Proof.Spec.lean ====
/-
  A linear layer whose weight is stored as a base matrix plus a per-row affine correction of small integers.

  The layer has 4096 inputs and 11008 outputs and is applied to 8 rows. Output row o of the weight is

      w (o, k) = base (o, k) + (q (o, k) - zero (o)) · scale (o),

  where q (o, k) is a signed 32-bit integer read as the real number it denotes, and zero and scale have one entry per
  output row. The layer's value at row p and output o is

      y (p, o) = (∑ k, x (p, k) · w (o, k)) + bias (o).

  Both programs compute exactly this expression over the extended reals: the same additions, subtractions and products
  in the same order inside each term, and one sum over the 4096 inputs. So no law of the extended reals is needed to
  compare them, and the finiteness of the inputs plays no part; only the places where the numbers are read differ.

  The per-row vectors appear in two layouts: as plain vectors of length 11008 (`result`), and as the column 11008 × 1
  (zero, scale) or the row 1 × 11008 (bias) a kernel addresses blocks of (`resultOfColumns`). A vector re-laid as a
  column or a row keeps its entries in order, which is all `resultOfColumns_shapeCast` says.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.DequantLinear

open Idealize.ShloMosaic Idealize.ShloMosaic.ValueIdx

/-- Entry (o, k) of the corrected weight, from the base matrix, the integer matrix and the two per-row numbers. -/
def weightAt (base : Ideal .f32) (q : BitVec 32) (zero scale : Ideal .f32) : Ideal .f32 :=
  base + (FloatOps.sitofp (F := Ideal) .f32 q - zero) * scale

/-- The layer's value at row p and output o, with the per-row vectors given as vectors of length 11008. -/
def resultAt (x : FVec Ideal ⟨2, ![8, 4096]⟩ .f32) (base : FVec Ideal ⟨2, ![11008, 4096]⟩ .f32)
    (q : IVec ⟨2, ![11008, 4096]⟩ 32) (scale zero bias : FVec Ideal ⟨1, ![11008]⟩ .f32) (p : Fin 8) (o : Fin 11008) :
    Ideal .f32 :=
  (∑ k : Fin 4096, x (ix2 p k) * weightAt (base (ix2 o k)) (q (ix2 o k)) (zero (ix1 o)) (scale (ix1 o))) + bias (ix1 o)

/-- The layer's value as an 8 × 11008 array. -/
def result (x : FVec Ideal ⟨2, ![8, 4096]⟩ .f32) (base : FVec Ideal ⟨2, ![11008, 4096]⟩ .f32)
    (q : IVec ⟨2, ![11008, 4096]⟩ 32) (scale zero bias : FVec Ideal ⟨1, ![11008]⟩ .f32) :
    FVec Ideal ⟨2, ![8, 11008]⟩ .f32 := fun i => resultAt x base q scale zero bias (i 0) (i 1)

/-- The layer's value at row p and output o, with zero and scale given as 11008 × 1 columns and the bias as a
    1 × 11008 row. -/
def columnsAt (x : FVec Ideal ⟨2, ![8, 4096]⟩ .f32) (base : FVec Ideal ⟨2, ![11008, 4096]⟩ .f32)
    (q : IVec ⟨2, ![11008, 4096]⟩ 32) (scale zero : FVec Ideal ⟨2, ![11008, 1]⟩ .f32)
    (bias : FVec Ideal ⟨2, ![1, 11008]⟩ .f32) (p : Fin 8) (o : Fin 11008) : Ideal .f32 :=
  (∑ k : Fin 4096, x (ix2 p k) * weightAt (base (ix2 o k)) (q (ix2 o k)) (zero (ix2 o 0)) (scale (ix2 o 0))) + bias (ix2 0 o)

/-- The same as an 8 × 11008 array. -/
def resultOfColumns (x : FVec Ideal ⟨2, ![8, 4096]⟩ .f32) (base : FVec Ideal ⟨2, ![11008, 4096]⟩ .f32)
    (q : IVec ⟨2, ![11008, 4096]⟩ 32) (scale zero : FVec Ideal ⟨2, ![11008, 1]⟩ .f32)
    (bias : FVec Ideal ⟨2, ![1, 11008]⟩ .f32) : FVec Ideal ⟨2, ![8, 11008]⟩ .f32 := fun i =>
  columnsAt x base q scale zero bias (i 0) (i 1)

/-- A vector of length n re-laid as an n × 1 column: entry (o, 0) of the column is entry o of the vector. -/
theorem column_apply {α : Type} {n : Nat} (v : (⟨1, ![n]⟩ : Shape).Idx → α)
    (h : (⟨1, ![n]⟩ : Shape).ShapeCasts ⟨2, ![n, 1]⟩) (o : Fin n) :
    shapeCast ⟨2, ![n, 1]⟩ v h (ix2 o 0) = v (ix1 o) := by
  refine shapeCast_apply v h _ _ ?_
  rw [Shape.rowMajor_val_one, Shape.rowMajor_val_two]
  show o.val = o.val * 1 + 0
  omega

/-- With the columns and the row obtained by re-laying vectors, the two forms of the layer's value agree at every
    row p and output o. -/
theorem columnsAt_shapeCast (x : FVec Ideal ⟨2, ![8, 4096]⟩ .f32) (base : FVec Ideal ⟨2, ![11008, 4096]⟩ .f32)
    (q : IVec ⟨2, ![11008, 4096]⟩ 32) (scale zero bias : FVec Ideal ⟨1, ![11008]⟩ .f32)
    (hc : (⟨1, ![11008]⟩ : Shape).ShapeCasts ⟨2, ![11008, 1]⟩) (hr : (⟨1, ![11008]⟩ : Shape).ShapeCasts ⟨2, ![1, 11008]⟩)
    (p : Fin 8) (o : Fin 11008) :
    columnsAt x base q (shapeCast ⟨2, ![11008, 1]⟩ scale hc) (shapeCast ⟨2, ![11008, 1]⟩ zero hc)
        (shapeCast ⟨2, ![1, 11008]⟩ bias hr) p o
      = resultAt x base q scale zero bias p o := by
  unfold columnsAt resultAt
  rw [column_apply scale hc, column_apply zero hc, shapeCast_a_1a_apply bias hr]

/-- So they agree as arrays. -/
theorem resultOfColumns_shapeCast (x : FVec Ideal ⟨2, ![8, 4096]⟩ .f32) (base : FVec Ideal ⟨2, ![11008, 4096]⟩ .f32)
    (q : IVec ⟨2, ![11008, 4096]⟩ 32) (scale zero bias : FVec Ideal ⟨1, ![11008]⟩ .f32)
    (hc : (⟨1, ![11008]⟩ : Shape).ShapeCasts ⟨2, ![11008, 1]⟩) (hr : (⟨1, ![11008]⟩ : Shape).ShapeCasts ⟨2, ![1, 11008]⟩) :
    resultOfColumns x base q (shapeCast ⟨2, ![11008, 1]⟩ scale hc) (shapeCast ⟨2, ![11008, 1]⟩ zero hc)
        (shapeCast ⟨2, ![1, 11008]⟩ bias hr)
      = result x base q scale zero bias :=
  funext fun i => columnsAt_shapeCast x base q scale zero bias hc hr (i 0) (i 1)

end Cert.DequantLinear
-- ==== Proof.Reference.lean ====
/-
  The reference program computes the layer's value.

  Read one operation at a time, the reference converts the integer matrix to reals, subtracts the zero point of the row
  (the vector broadcast first to a column, then along the row), multiplies by the row's scale (broadcast the same way), adds
  the base matrix, transposes the sum, contracts the 8 × 4096 input with it over the 4096 inputs, and adds the bias broadcast
  down the 8 rows. At output (p, o) the transposed weight is read at (k, o), that is the weight at (o, k); each broadcast
  reads its vector at o. What is left is literally the expression of `resultAt`.
-/
import proofs.«120787_j87540023427416_1_alg».proof.Proof.Gen.ReferenceIdeal.Read
import proofs.«120787_j87540023427416_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.DequantLinear

/-- The input is read at row p of the output and column k of the contraction. -/
theorem input_index (p : Fin 8) (o : Fin 11008) (k : Fin 4096) : lidx_main_v9 (ix2 p o) k = ix2 p k :=
  funext fun a => by match a with | ⟨0, _⟩ => rfl | ⟨1, _⟩ => rfl

/-- The transposed weight read at (k, o) is the weight at (o, k). -/
theorem weight_index (p : Fin 8) (o : Fin 11008) (k : Fin 4096) : idx_main_v8 (ridx_main_v9 (ix2 p o) k) = ix2 o k :=
  funext fun a => by match a with | ⟨0, _⟩ => rfl | ⟨1, _⟩ => rfl

/-- The zero point broadcast over the matrix is read at the matrix entry's row. -/
theorem zero_index (o : Fin 11008) (k : Fin 4096) : idx_main_v1 (idx_main_v2 (ix2 o k)) = ix1 o :=
  funext fun a => by match a with | ⟨0, _⟩ => rfl

/-- The scale broadcast over the matrix is read at the matrix entry's row. -/
theorem scale_index (o : Fin 11008) (k : Fin 4096) : idx_main_v4 (idx_main_v5 (ix2 o k)) = ix1 o :=
  funext fun a => by match a with | ⟨0, _⟩ => rfl

/-- The bias broadcast down the rows is read at the output's column. -/
theorem bias_index (p : Fin 8) (o : Fin 11008) : idx_main_v10 (idx_main_v11 (ix2 p o)) = ix1 o :=
  funext fun a => by match a with | ⟨0, _⟩ => rfl

/-- The reference's last stage at (p, o) is the layer's value there. -/
theorem reference_apply (x0 : FVec Ideal S8x4096 .f32) (x1 : FVec Ideal S11008x4096 .f32) (x2 : IVec S11008x4096 32)
    (x3 x4 x5 : FVec Ideal S11008 .f32) (p : Fin 8) (o : Fin 11008) :
    val_main_v12 (F := Ideal) x0 x1 x2 x3 x4 x5 (ix2 p o) = resultAt x0 x1 x2 x3 x4 x5 p o := by
  rw [val_main_v12_apply, val_main_v9_apply, val_main_v11_apply, val_main_v10_apply, bias_index]
  unfold resultAt weightAt
  simp only [val_main_v8_apply, val_main_v7_apply, val_main_v6_apply, val_main_v5_apply, val_main_v4_apply,
    val_main_v3_apply, val_main_v2_apply, val_main_v1_apply, val_main_v0_apply, input_index, weight_index, zero_index,
    scale_index, Ideal.addf_def, Ideal.mulf_def, Ideal.subf_def]

/-- The reference's last stage is the layer's value as an array. -/
theorem reference_eq (x0 : FVec Ideal S8x4096 .f32) (x1 : FVec Ideal S11008x4096 .f32) (x2 : IVec S11008x4096 32)
    (x3 x4 x5 : FVec Ideal S11008 .f32) :
    val_main_v12 (F := Ideal) x0 x1 x2 x3 x4 x5 = result x0 x1 x2 x3 x4 x5 := by
  funext i
  obtain ⟨p, o, rfl⟩ : ∃ (p : Fin 8) (o : Fin 11008), i = ix2 p o := ⟨i 0, i 1, eq_ix2 i⟩
  exact reference_apply x0 x1 x2 x3 x4 x5 p o

end Cert.ReferenceIdeal.RefValue
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Step.lean ====
/-
  What one grid step of the kernel computes.

  A step holds 256 rows of the weight: the blocks of the base matrix and of the integer matrix are 256 × 4096, the
  blocks of zero and scale are 256 × 1 columns, the bias block is a 1 × 256 row, and the whole 8 × 4096 input is present.
  The step forms the corrected weight block (integers to reals, minus the zero column broadcast along the row, times
  the scale column broadcast along the row, plus the base block), transposes it to 4096 × 256, multiplies the input by it
  into an all-zero 8 × 256 accumulator, and adds the bias row broadcast down the 8 rows. Narrowing a number to a shorter
  float format changes nothing over the extended reals. At entry (p, j) of the step's 8 × 256 result this is

      (∑ k, x (p, k) · (base (j, k) + (q (j, k) - zero (j, 0)) · scale (j, 0))) + bias (0, j).
-/
import proofs.«120787_j87540023427416_1_alg».proof.Proof.Gen.KernelIdeal.Skeleton
import proofs.«120787_j87540023427416_1_alg».proof.Proof.Spec
import proofs.«120787_j87540023427416_1_alg».proof.Proof.LibDotPlain
import Idealize.ShloMosaic.Lib.ValueLayout
import Idealize.ShloMosaic.Lib.Pipeline.Value

noncomputable section

open scoped BigOperators

namespace Cert.KernelIdeal.Step

open Cert.KernelIdeal Cert.KernelIdeal.Gen Idealize.ShloMosaic Idealize.ShloMosaic.ValueIdx
open Cert.DequantLinear

/-- A 256 × 1 column broadcast along the rows of a 256 × 4096 block: entry (j, k) is the column's entry (j, 0). -/
theorem column_broadcast_apply {α : Type} (v : S256x1.Idx → α) (h : S256x1.Broadcasts S256x4096) (j : Fin 256) (k : Fin 4096) :
    broadcastTo S256x4096 v h (ix2 j k) = v (ix2 j 0) :=
  broadcastTo_apply v h _ _ fun a => by
    match a with
    | ⟨0, _⟩ => show j.val = if (256 : Nat) = 1 then 0 else j.val; rw [if_neg (by decide)]
    | ⟨1, _⟩ => show 0 = if (1 : Nat) = 1 then 0 else k.val; rw [if_pos rfl]

/-- The kernel's contraction is the plain 8 × 4096 by 4096 × 256 product. -/
theorem dims_plain : dot_S8x4096_S4096x256_S8x256_1_0_0_1_n_n = DotDims.plain 8 4096 256 := rfl

/-- The step's stored value at entry (p, j). -/
theorem step_apply (v0 : Vec Ideal S256x4096 .i32) (v2 v6 : Vec Ideal S256x1 .f32) (v10 : Vec Ideal S256x4096 .f32)
    (v13 : Vec Ideal S8x4096 .f32) (v17 : Vec Ideal S1x256 .f32) (p : Fin 8) (j : Fin 256) :
    k0_pay1 (F := Ideal) v0 v2 v6 v10 v13 v17 (ix2 p j)
      = (∑ k : Fin 4096, v13 (ix2 p k) * weightAt (v10 (ix2 j k)) (v0 (ix2 j k)) (v2 (ix2 j 0)) (v6 (ix2 j 0)))
          + v17 (ix2 0 j) := by
  unfold k0_pay1
  rw [addf_apply, dims_plain]
  simp only [matmul]
  rw [Cert.LibDotPlain.matmul_zero_plain 8 4096 256]
  rw [shapeCast_self, shapeCast_self, shapeCast_self, broadcastTo_1b_ab_apply]
  refine congrArg (· + v17 (ix2 0 j)) (Finset.sum_congr rfl fun k _ => ?_)
  rw [truncf_apply, transpose_ix2_apply, truncf_apply, addf_apply, mulf_apply, subf_apply, sitofp_apply,
    column_broadcast_apply, column_broadcast_apply]
  rfl

end Cert.KernelIdeal.Step
-- ==== Proof.Whole.lean ====
/-
  From the grid steps to the whole output array.

  The grid has 43 steps. Step t reads rows 256 t … 256 t + 255 of the base matrix, of the integer matrix and of the zero
  and scale columns, columns 256 t … 256 t + 255 of the bias row, and the whole input; it writes columns
  256 t … 256 t + 255 of the 8 × 11008 output. Entry (p, j) of what step t writes is therefore the layer's value at
  (p, 256 t + j): every block read moves the row or column index by 256 t and nothing else. Column o of the output lies
  in the block of step o / 256, and 43 · 256 = 11008, so the blocks cover the output and the array ends holding the
  layer's value everywhere.

  Before the steps run, the three per-row vectors are re-laid on the host as two 11008 × 1 columns and a 1 × 11008 row;
  re-laying keeps the entries in order, so the value is the one stated over the vectors themselves.
-/
import proofs.«120787_j87540023427416_1_alg».proof.Proof.Gen.KernelIdeal.Value
import proofs.«120787_j87540023427416_1_alg».proof.Proof.Step
import Idealize.ShloMosaic.Lib.Pipeline.Value
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.DequantLinear

variable (m : (ℓ : Loc nD τ sig) → Buf (Elt Ideal) ℓ) (ρ : Dev nD → PrngReg)

/-! ## The arrays the steps read, by name -/

/-- The input, 8 × 4096. -/
abbrev xArr (c : Dev nD) : FVec Ideal S8x4096 .f32 := V m c main_arg0
/-- The base matrix, 11008 × 4096. -/
abbrev baseArr (c : Dev nD) : FVec Ideal S11008x4096 .f32 := V m c main_arg1
/-- The integer matrix, 11008 × 4096. -/
abbrev qArr (c : Dev nD) : IVec S11008x4096 32 := V m c main_arg2
/-- The scale column, 11008 × 1. -/
abbrev scaleCol (c : Dev nD) : FVec Ideal S11008x1 .f32 := V m c main_v0
/-- The zero column, 11008 × 1. -/
abbrev zeroCol (c : Dev nD) : FVec Ideal S11008x1 .f32 := V m c main_v1
/-- The bias row, 1 × 11008. -/
abbrev biasRow (c : Dev nD) : FVec Ideal S1x11008 .f32 := V m c main_v2

/-- The layer's value over those arrays. -/
abbrev target (c : Dev nD) : FVec Ideal S8x11008 .f32 :=
  resultOfColumns (xArr m c) (baseArr m c) (qArr m c) (scaleCol m c) (zeroCol m c) (biasRow m c)

/-! ## Which block each window holds at step t -/

theorem origin_zero : (![0, 0] : Fin 2 → Nat) = fun _ => 0 := funext fun a => by fin_cases a <;> rfl

/-- The block indices at step t, decided over the 43 steps: the input stays at block (0, 0); the two matrices and the
    two columns are at block row t; the bias row and the output are at block column t. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- Row or column j of step t's block is row or column 256 t + j of the array. -/
def shifted (t : Fin cfg0.N) (j : Fin 256) : Fin 11008 :=
  ⟨t.val * 256 + j.val, by have ht : t.val < 43 := lt_of_lt_of_eq t.isLt N_0; have hj := j.isLt; omega⟩

/-! ## What step t writes back -/

/-- Step t writes back block t of the layer's value over the arrays as the steps find them. -/
theorem flushed_eq (c : Dev nD) (t : Fin cfg0.N) :
    (dats m 0 c).flushed 6 t = ((cfg0.win 6).blk t).view.read (Elt Ideal) (target m c) := by
  rw [Value.flushed6]
  unfold out0_6
  rw [View.canon_unit_zero origin_zero]
  simp only [View.ld_unit_zero (S := S256x4096) origin_zero, View.ld_unit_zero (S := S256x1) origin_zero,
    View.ld_unit_zero (S := S8x4096) origin_zero, View.ld_unit_zero (S := S1x256) origin_zero]
  obtain ⟨e00, e01, e10, e11, e20, e21, e30, e31, e40, e41, e50, e51, e60, e61⟩ := block_indices t
  funext y
  obtain ⟨p, j, rfl⟩ : ∃ (p : Fin 8) (j : Fin 256), y = ix2 p j := ⟨y 0, y 1, eq_ix2 y⟩
  show k0_pay1 (F := Ideal) (iblk m c 2 t) (iblk m c 4 t) (iblk m c 3 t) (iblk m c 1 t) (iblk m c 0 t) (iblk m c 5 t) (ix2 p j)
    = target m c (((cfg0.win 6).blk t).view.emb (ix2 p j))
  refine (Step.step_apply (iblk m c 2 t) (iblk m c 4 t) (iblk m c 3 t) (iblk m c 1 t) (iblk m c 0 t) (iblk m c 5 t) p j).trans ?_
  have r0 : ∀ k : Fin 4096, iblk m c 0 t (ix2 p k) = xArr m c (ix2 p k) := fun k => by
    show xArr m c (((cfg0.win 0).blk t).view.emb (ix2 p k)) = xArr m c (ix2 p k)
    refine congrArg _ (funext fun a => Fin.ext ?_)
    match a with
    | ⟨0, _⟩ => show win0_0.index t (0 : Fin 2) * 8 + 1 * p.val = p.val; omega
    | ⟨1, _⟩ => show win0_0.index t (1 : Fin 2) * 4096 + 1 * k.val = k.val; omega
  have r1 : ∀ k : Fin 4096, iblk m c 1 t (ix2 j k) = baseArr m c (ix2 (shifted t j) k) := fun k => by
    show baseArr m c (((cfg0.win 1).blk t).view.emb (ix2 j k)) = baseArr m c (ix2 (shifted t j) k)
    refine congrArg _ (funext fun a => Fin.ext ?_)
    match a with
    | ⟨0, _⟩ => show win0_1.index t (0 : Fin 2) * 256 + 1 * j.val = t.val * 256 + j.val; omega
    | ⟨1, _⟩ => show win0_1.index t (1 : Fin 2) * 4096 + 1 * k.val = k.val; omega
  have r2 : ∀ k : Fin 4096, iblk m c 2 t (ix2 j k) = qArr m c (ix2 (shifted t j) k) := fun k => by
    show qArr m c (((cfg0.win 2).blk t).view.emb (ix2 j k)) = qArr m c (ix2 (shifted t j) k)
    refine congrArg _ (funext fun a => Fin.ext ?_)
    match a with
    | ⟨0, _⟩ => show win0_2.index t (0 : Fin 2) * 256 + 1 * j.val = t.val * 256 + j.val; omega
    | ⟨1, _⟩ => show win0_2.index t (1 : Fin 2) * 4096 + 1 * k.val = k.val; omega
  have r3 : iblk m c 3 t (ix2 j 0) = scaleCol m c (ix2 (shifted t j) 0) := by
    show scaleCol m c (((cfg0.win 3).blk t).view.emb (ix2 j 0)) = scaleCol m c (ix2 (shifted t j) 0)
    refine congrArg _ (funext fun a => Fin.ext ?_)
    match a with
    | ⟨0, _⟩ => show win0_3.index t (0 : Fin 2) * 256 + 1 * j.val = t.val * 256 + j.val; omega
    | ⟨1, _⟩ => show win0_3.index t (1 : Fin 2) * 1 + 1 * 0 = 0; omega
  have r4 : iblk m c 4 t (ix2 j 0) = zeroCol m c (ix2 (shifted t j) 0) := by
    show zeroCol m c (((cfg0.win 4).blk t).view.emb (ix2 j 0)) = zeroCol m c (ix2 (shifted t j) 0)
    refine congrArg _ (funext fun a => Fin.ext ?_)
    match a with
    | ⟨0, _⟩ => show win0_4.index t (0 : Fin 2) * 256 + 1 * j.val = t.val * 256 + j.val; omega
    | ⟨1, _⟩ => show win0_4.index t (1 : Fin 2) * 1 + 1 * 0 = 0; omega
  have r5 : iblk m c 5 t (ix2 0 j) = biasRow m c (ix2 0 (shifted t j)) := by
    show biasRow m c (((cfg0.win 5).blk t).view.emb (ix2 0 j)) = biasRow m c (ix2 0 (shifted t j))
    refine congrArg _ (funext fun a => Fin.ext ?_)
    match a with
    | ⟨0, _⟩ => show win0_5.index t (0 : Fin 2) * 1 + 1 * 0 = 0; omega
    | ⟨1, _⟩ => show win0_5.index t (1 : Fin 2) * 256 + 1 * j.val = t.val * 256 + j.val; omega
  have r6 : ((cfg0.win 6).blk t).view.emb (ix2 p j) = ix2 p (shifted t j) := by
    refine funext fun a => Fin.ext ?_
    match a with
    | ⟨0, _⟩ => show win0_6.index t (0 : Fin 2) * 8 + 1 * p.val = p.val; omega
    | ⟨1, _⟩ => show win0_6.index t (1 : Fin 2) * 256 + 1 * j.val = t.val * 256 + j.val; omega
  rw [r6]
  show _ = columnsAt (xArr m c) (baseArr m c) (qArr m c) (scaleCol m c) (zeroCol m c) (biasRow m c) p (shifted t j)
  unfold columnsAt
  rw [r3, r4, r5]
  exact congrArg (· + biasRow m c (ix2 0 (shifted t j))) (Finset.sum_congr rfl fun k _ => by rw [r0 k, r1 k, r2 k])

/-! ## The blocks cover the output -/

/-- An index of the output is in step t's block iff each coordinate is in the block's range on its axis. -/
theorem mem_block (t : Fin cfg0.N) (i : S8x11008.Idx) :
    i ∈ ((cfg0.win 6).blk t).view.set ↔ ∀ a : Fin 2, win0_6.index t a * S8x256.size a ≤ (i a).val ∧ (i a).val < win0_6.index t a * S8x256.size a + S8x256.size a := by
  show i ∈ ((View.whole main_v3).slice (win0_6.rect t)).set ↔ _
  rw [View.set_slice_whole, Rect.mem_set_unit]
  exact Iff.rfl

/-- Every output index lies in the block of the step its column divided by 256 names. -/
theorem covered (i : S8x11008.Idx) : ∃ t : Fin cfg0.N, (cfg0.win 6).flush t = true ∧ i ∈ ((cfg0.win 6).blk t).view.set := by
  have hi0 : (i 0).val < 8 := (i 0).isLt
  have hi1 : (i 1).val < 11008 := (i 1).isLt
  have ht : (i 1).val / 256 < cfg0.N := by rw [show cfg0.N = 43 from N_0]; omega
  obtain ⟨-, -, -, -, -, -, -, -, -, -, -, -, e60, e61⟩ := block_indices ⟨(i 1).val / 256, ht⟩
  refine ⟨⟨(i 1).val / 256, ht⟩, flush0_6 _, ?_⟩
  rw [mem_block]
  intro a
  match a with
  | ⟨0, _⟩ =>
    show win0_6.index ⟨(i 1).val / 256, ht⟩ (0 : Fin 2) * 8 ≤ (i 0).val ∧ (i 0).val < win0_6.index ⟨(i 1).val / 256, ht⟩ (0 : Fin 2) * 8 + 8
    omega
  | ⟨1, _⟩ =>
    show win0_6.index ⟨(i 1).val / 256, ht⟩ (1 : Fin 2) * 256 ≤ (i 1).val ∧ (i 1).val < win0_6.index ⟨(i 1).val / 256, ht⟩ (1 : Fin 2) * 256 + 256
    have e : (⟨(i 1).val / 256, ht⟩ : Fin cfg0.N).val = (i 1).val / 256 := rfl
    omega

/-! ## The columns and the row the host prepares -/

/-- The scale column is the scale vector re-laid. -/
theorem scaleCol_eq (c : Dev nD) :
    scaleCol m c = shapeCast S11008x1 (m ((c : Thread nD τ).loc main_arg3)) shapeCasts_S11008_S11008x1 := by
  show V m c main_v0 = _
  dsimp only [V, hostOps0]
  after_results
  rfl

/-- The zero column is the zero-point vector re-laid. -/
theorem zeroCol_eq (c : Dev nD) :
    zeroCol m c = shapeCast S11008x1 (m ((c : Thread nD τ).loc main_arg4)) shapeCasts_S11008_S11008x1 := by
  show V m c main_v1 = _
  dsimp only [V, hostOps0]
  after_results
  rfl

/-- The bias row is the bias vector re-laid. -/
theorem biasRow_eq (c : Dev nD) :
    biasRow m c = shapeCast S1x11008 (m ((c : Thread nD τ).loc main_arg5)) shapeCasts_S11008_S1x11008 := by
  show V m c main_v2 = _
  dsimp only [V, hostOps0]
  after_results
  rfl

/-! ## The output array after the run -/

/-- After the last step the output array holds the layer's value of the argument arrays. -/
theorem final (c : Dev nD) :
    (dats m 0 c).arrAt 6 cfg0.N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [(dats m 0 c).arrAt_eq_of_cover 6 (target m c) (fun t _ => flushed_eq m c t) covered]
  show resultOfColumns (xArr m c) (baseArr m c) (qArr m c) (scaleCol m c) (zeroCol m c) (biasRow m c) = _
  rw [scaleCol_eq, zeroCol_eq, biasRow_eq]
  show resultOfColumns (V m c main_arg0) (V m c main_arg1) (V m c main_arg2) _ _ _ = _
  rw [V_main_arg0, V_main_arg1, V_main_arg2]
  exact resultOfColumns_shapeCast _ _ _ _ _ _ shapeCasts_S11008_S11008x1 shapeCasts_S11008_S1x11008

/-- The kernel's run: it terminates without a fault, its result is the layer's value of the arguments, and the
    arguments end unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole
-- ==== Proof.lean ====
/-
  A linear layer with a corrected weight, computed by a kernel in 43 steps of 256 output columns each, against the same
  layer written as whole-array operations.

  Both programs compute, at row p and output o,

      (∑ k, x (p, k) · (base (o, k) + (q (o, k) - zero (o)) · scale (o))) + bias (o)

  over the extended reals (Proof/Spec.lean). The reference does so directly (Proof/Reference.lean). A kernel step does
  so for the 256 outputs of its block (Proof/Step.lean), and the 43 blocks cover the output (Proof/Whole.lean). The two
  expressions are the same term by term, so the precondition is not used. The three frame claims are the programs' runs
  with the result forgotten; the idealized kernel is the kernel's own text read over the extended reals, so there is
  nothing to preserve.
-/
import proofs.«120787_j87540023427416_1_alg».proof.Defs
import proofs.«120787_j87540023427416_1_alg».proof.Proof.Gen.Kernel
import proofs.«120787_j87540023427416_1_alg».proof.Proof.Gen.Kernel.Skeleton
import proofs.«120787_j87540023427416_1_alg».proof.Proof.Gen.Kernel.Launch
import proofs.«120787_j87540023427416_1_alg».proof.Proof.Gen.Kernel.Points
import proofs.«120787_j87540023427416_1_alg».proof.Proof.Gen.Kernel.Frame
import proofs.«120787_j87540023427416_1_alg».proof.Proof.Gen.KernelIdeal
import proofs.«120787_j87540023427416_1_alg».proof.Proof.Gen.KernelIdeal.Skeleton
import proofs.«120787_j87540023427416_1_alg».proof.Proof.Gen.KernelIdeal.Launch
import proofs.«120787_j87540023427416_1_alg».proof.Proof.Gen.KernelIdeal.Points
import proofs.«120787_j87540023427416_1_alg».proof.Proof.Gen.KernelIdeal.Frame
import proofs.«120787_j87540023427416_1_alg».proof.Proof.Gen.ReferenceIdeal
import proofs.«120787_j87540023427416_1_alg».proof.Proof.Gen.Pre_finite_inputs
import proofs.«120787_j87540023427416_1_alg».proof.Proof.Gen.KernelIdeal.Value
import proofs.«120787_j87540023427416_1_alg».proof.Proof.Gen.ReferenceIdeal.Run
import proofs.«120787_j87540023427416_1_alg».proof.Proof.Gen.ReferenceIdeal.Read
import proofs.«120787_j87540023427416_1_alg».proof.Proof.Reference
import proofs.«120787_j87540023427416_1_alg».proof.Proof.Whole
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer's value of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
